-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S10000x128 .f32) (main_arg1 : FVec F S10000x10000 .f32) (main_arg2 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S256x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .hbm, ⟨4, _⟩ => ⟨S10000x256, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The graph-convolution layer as ONE function of its three argument arrays, over the extended reals.

  With features `x` (10000 × 128), a dense adjacency `adj` (10000 × 10000) and weights `W` (256 × 128), the
  aggregated features are `agg r k = ∑ n, adj[r, n] · x[n, k]`, and the layer's output at row `r`, column `j` is

      ∑ k < 128, x[r, k] · W[k, j]  +  ∑ k < 128, agg r k · W[128 + k, j].

  The first sum uses the top half of `W`, the second its bottom half.  A product of the row-wise concatenation
  `[x | agg]` with the whole of `W` is one sum over 256 terms; it splits into these two sums of 128 terms
  (`sum_halves`), which uses only that addition on the extended reals is commutative and associative — no
  distributive law, so no finiteness of the entries is needed.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- Row `k` of the top half of a 256-row array. -/
abbrev top (k : Fin 128) : Fin 256 := ⟨k.val, by omega⟩
/-- Row `k` of the bottom half of a 256-row array: row `128 + k`. -/
abbrev bot (k : Fin 128) : Fin 256 := ⟨128 + k.val, by omega⟩

/-- A sum over 256 terms is the sum over its first 128 plus the sum over its last 128, in any commutative monoid. -/
theorem sum_halves {M : Type*} [AddCommMonoid M] (f : Fin 256 → M) :
    ∑ k : Fin 256, f k = (∑ k : Fin 128, f (top k)) + ∑ k : Fin 128, f (bot k) :=
  Fin.sum_univ_add (a := 128) (b := 128) f

/-- The aggregated features: entry `(r, k)` of `adj · x`. -/
def agg (x : (⟨2, ![10000, 128]⟩ : Shape).Idx → EReal) (adj : (⟨2, ![10000, 10000]⟩ : Shape).Idx → EReal)
    (r : Fin 10000) (k : Fin 128) : EReal :=
  ∑ n : Fin 10000, adj (ix2 r n) * x (ix2 n k)

/-- The layer's output: `x · W_top + (adj · x) · W_bot`, entry by entry. -/
def gcn (x : (⟨2, ![10000, 128]⟩ : Shape).Idx → EReal) (adj : (⟨2, ![10000, 10000]⟩ : Shape).Idx → EReal)
    (W : (⟨2, ![256, 128]⟩ : Shape).Idx → EReal) : (⟨2, ![10000, 128]⟩ : Shape).Idx → EReal := fun i =>
  (∑ k : Fin 128, x (ix2 (i 0) k) * W (ix2 (top k) (i 1)))
    + ∑ k : Fin 128, agg x adj (i 0) k * W (ix2 (bot k) (i 1))

end Cert.Spec

end
-- ==== Proof.RefValue.lean ====
/-
  The reference computes the layer's specification.

  The reference multiplies the row-wise concatenation `[x | adj · x]` (10000 × 256) by the whole of `W`.  Entry `(r, j)` of
  that product is a sum over the 256 columns of the concatenation; its first 128 terms read `x[r, k]` (the left piece)
  against row `k` of `W`, its last 128 terms read `(adj · x)[r, k]` (the right piece, column `128 + k` of the
  concatenation) against row `128 + k` of `W`.  Splitting the sum in halves gives the specification.
-/
import proofs.«159715_g60533269070024_cont_9to1_m_1378_7_alg».proof.Proof.Gen.ReferenceIdeal.Read
import proofs.«159715_g60533269070024_cont_9to1_m_1378_7_alg».proof.Proof.Spec

noncomputable section

open scoped BigOperators

namespace Cert.ReferenceIdeal.RefValue

open Cert.ReferenceIdeal Cert.ReferenceIdeal.Read Idealize.ShloMosaic Idealize.ShloMosaic.ValueIdx Cert.Spec

/-- Column `k < 128` of the concatenation `[x | adj · x]` is column `k` of `x`. -/
theorem cat_top (x0 : (⟨S10000x128, .f32⟩ : BufTy).Contents (Elt Ideal)) (x1 : (⟨S10000x10000, .f32⟩ : BufTy).Contents (Elt Ideal))
    (i : S10000x128.Idx) (k : Fin 128) :
    val_main_v1 (F := Ideal) x0 x1 (lidx_main_v2 i (top k)) = x0 (ix2 (i 0) k) := by
  unfold val_main_v1
  refine concatenate_pair_apply_left (s₁ := S10000x128) (s₂ := S10000x128) (1 : Fin S10000x256.rank) _ _ _ _ rfl (ix2 (i 0) k) ?_
  intro b
  match b with
  | ⟨0, _⟩ => rfl
  | ⟨1, _⟩ => rfl

/-- Column `128 + k` of the concatenation is column `k` of `adj · x`. -/
theorem cat_bot (x0 : (⟨S10000x128, .f32⟩ : BufTy).Contents (Elt Ideal)) (x1 : (⟨S10000x10000, .f32⟩ : BufTy).Contents (Elt Ideal))
    (i : S10000x128.Idx) (k : Fin 128) :
    val_main_v1 (F := Ideal) x0 x1 (lidx_main_v2 i (bot k)) = val_main_v0 (F := Ideal) x0 x1 (ix2 (i 0) k) := by
  unfold val_main_v1
  refine concatenate_pair_apply_right (s₁ := S10000x128) (s₂ := S10000x128) (1 : Fin S10000x256.rank) _ _ _ _ rfl rfl (ix2 (i 0) k) ?_ ?_
  · intro b hb
    match b with
    | ⟨0, _⟩ => rfl
    | ⟨1, _⟩ => exact absurd rfl hb
  · show k.val + 128 = 128 + k.val
    omega

/-- Entry `(r, k)` of the reference's `adj · x` is the specification's aggregated feature. -/
theorem support_eq (x0 : (⟨S10000x128, .f32⟩ : BufTy).Contents (Elt Ideal)) (x1 : (⟨S10000x10000, .f32⟩ : BufTy).Contents (Elt Ideal))
    (r : Fin 10000) (k : Fin 128) :
    val_main_v0 (F := Ideal) x0 x1 (ix2 r k) = agg x0 x1 r k := by
  rw [val_main_v0_apply]
  unfold agg
  refine Finset.sum_congr rfl fun n _ => ?_
  have el : lidx_main_v0 (ix2 r k) n = ix2 r n := funext fun a => by
    match a with
    | ⟨0, _⟩ => rfl
    | ⟨1, _⟩ => rfl
  have er : ridx_main_v0 (ix2 r k) n = ix2 n k := funext fun a => by
    match a with
    | ⟨0, _⟩ => rfl
    | ⟨1, _⟩ => rfl
  rw [el, er]

/-- The reference's result array is the specification of its three arguments. -/
theorem result_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) :
    val_main_v2 (F := Ideal) x0 x1 x2 = gcn x0 x1 x2 := by
  funext i
  rw [val_main_v2_apply, sum_halves]
  unfold gcn
  have er : ∀ k : Fin 256, ridx_main_v2 i k = ix2 k (i 1) := fun k => funext fun a => by
    match a with
    | ⟨0, _⟩ => rfl
    | ⟨1, _⟩ => rfl
  refine congrArg₂ (· + ·) (Finset.sum_congr rfl fun k _ => ?_) (Finset.sum_congr rfl fun k _ => ?_)
  · rw [cat_top, er]; rfl
  · rw [cat_bot, er]
    exact congrArg (· * x2 (ix2 (bot k) (i 1))) (support_eq x0 x1 (i 0) k)

end Cert.ReferenceIdeal.RefValue

end
-- ==== Proof.KernelPayload.lean ====
/-
  What the kernel body stores, entry by entry, over the extended reals.

  At one grid point the body holds a 400-row block `A` of the adjacency, the whole feature array `X`, the 400 rows
  `Xb` of `X` that belong to the block, and the two 128-row halves `Wt`, `Wb` of the weights.  It forms
  `S = A · X` (400 × 128, a contraction over 10000), then `Xb · Wt + S · Wb`.  The narrowing of `A` and `X` to a
  shorter float format before the first product is the identity on extended reals, and each product accumulates
  into a zero block, so entry `(p, q)` of the stored block is

      ∑ k < 128, Xb[p, k] · Wt[k, q]  +  ∑ k < 128, (∑ n < 10000, A[p, n] · X[n, k]) · Wb[k, q].
-/
import proofs.«159715_g60533269070024_cont_9to1_m_1378_7_alg».proof.Proof.Gen.KernelIdeal.Skeleton
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The operand indices of the two contractions, axis by axis -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem lhs_lin_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_lin_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_lin_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_lin_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-! ## The two products at an entry -/

/-- The aggregation product `A · X` into a zero block: entry `(p, q)` is the sum over the 10000 neighbours `n` of `A[p, n] · X[n, q]`. -/
theorem agg_apply {φ₁ φ₂ : FTy} (a : FVec Ideal S400x10000 φ₁) (b : FVec Ideal S10000x128 φ₂) (p : Fin 400) (q : Fin 128) :
    matmul dot_S400x10000_S10000x128_S400x128_1_0_0_1_n_n none a b (constant S400x128 .f32 0x00000000#32) (ix2 p q)
      = ∑ k : Fin 10000, a (ix2 p k) * b (ix2 k q) := by
  show FloatOps.matmul dot_S400x10000_S10000x128_S400x128_1_0_0_1_n_n none a b (constant S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun d => Fin.ext (by
    match d with
    | ⟨0, _⟩ => exact lhs_agg_0 _ _
    | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun d => Fin.ext (by
    match d with
    | ⟨0, _⟩ => exact (rhs_agg_0 _ _).trans hk
    | ⟨1, _⟩ => exact rhs_agg_1 _ _)
  rw [el, er]

/-- A product with one 128-row half of the weights into a zero block: entry `(p, q)` is the sum over `k < 128` of `a[p, k] · b[k, q]`. -/
theorem lin_apply {φ₁ φ₂ : FTy} (a : FVec Ideal S400x128 φ₁) (b : FVec Ideal S128x128 φ₂) (p : Fin 400) (q : Fin 128) :
    matmul dot_S400x128_S128x128_S400x128_1_0_0_1_n_n none a b (constant S400x128 .f32 0x00000000#32) (ix2 p q)
      = ∑ k : Fin 128, a (ix2 p k) * b (ix2 k q) := by
  show FloatOps.matmul dot_S400x128_S128x128_S400x128_1_0_0_1_n_n none a b (constant S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun d => Fin.ext (by
    match d with
    | ⟨0, _⟩ => exact lhs_lin_0 _ _
    | ⟨1, _⟩ => exact (lhs_lin_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun d => Fin.ext (by
    match d with
    | ⟨0, _⟩ => exact (rhs_lin_0 _ _).trans hk
    | ⟨1, _⟩ => exact rhs_lin_1 _ _)
  rw [el, er]

/-! ## The stored block at an entry -/

/-- Entry `(p, q)` of the block the body stores. -/
theorem pay_apply (A : Vec Ideal S400x10000 .f32) (X : Vec Ideal S10000x128 .f32) (Xb : Vec Ideal S400x128 .f32)
    (Wt : Vec Ideal S128x128 .f32) (Wb : Vec Ideal S128x128 .f32) (p : Fin 400) (q : Fin 128) :
    k0_pay1 A X Xb Wt Wb (ix2 p q)
      = (∑ k : Fin 128, Xb (ix2 p k) * Wt (ix2 k q))
        + ∑ k : Fin 128, (∑ n : Fin 10000, A (ix2 p n) * X (ix2 n k)) * Wb (ix2 k q) := by
  unfold k0_pay1
  rw [addf_apply, lin_apply, lin_apply]
  refine congrArg (_ + ·) (Finset.sum_congr rfl fun k _ => ?_)
  rw [agg_apply]
  rfl

end Cert.KernelIdeal.Payload

end
-- ==== Proof.KernelValue.lean ====
/-
  The kernel's result array is the layer's specification of its three arguments.

  The grid has 25 points; point `t` holds rows `400 t … 400 t + 399` of the adjacency (all 10000 columns), the whole
  feature array and the whole weight array, and writes rows `400 t … 400 t + 399` of the result.  Inside the body the
  rows of the features that belong to the block are read again at row offset `400 t`, and the weights are read as a
  top half (rows 0 … 127) and a bottom half (rows 128 … 255).  So entry `(p, q)` of the block written at point `t` is
  the specification at row `400 t + p`, column `q`; the 25 blocks tile the 10000 rows, row `r` lying in block
  `r / 400`.
-/
import proofs.«159715_g60533269070024_cont_9to1_m_1378_7_alg».proof.Proof.Gen.KernelIdeal.Value
import proofs.«159715_g60533269070024_cont_9to1_m_1378_7_alg».proof.Proof.KernelPayload
import proofs.«159715_g60533269070024_cont_9to1_m_1378_7_alg».proof.Proof.Spec
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Payload Cert.Spec Idealize.ShloMosaic.ValueIdx

theorem hz : (![0, 0] : Fin 2 → Nat) = fun _ => 0 := funext fun a => by fin_cases a <;> rfl

/-! ## What the body leaves in the output's staging buffer -/

section Stored
variable {F : FTy → Type} [FloatOps F]

/-- The body's one store covers the output block, so the block ends holding the stored payload: the body's arithmetic
    of the adjacency block, the whole features, the features' rows at the block's row offset, and the two halves of
    the weights. -/
theorem stored_eq (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S256x128 .f32) (harg3 : arg3.IsWhole)
    (arg4 : Memref sig .tc .vmem S400x128 .f32) (harg4 : arg4.IsWhole)
    (x0 : Vec F S400x10000 .f32) (x1 : Vec F S10000x128 .f32) (x2 : Vec F S256x128 .f32) :
    out0_A_3 c i arg1 harg1 arg2 harg2 arg3 harg3 arg4 harg4 x0 x1 x2
      = k0_pay1 x0 x1 (View.ld x1 (Rect.unit (s := S10000x128) (k0_off1 i) S400x128.size (k0_off1_inb i)))
          (View.ld x2 (Rect.unit (s := S256x128) ![0, 0] S128x128.size inb_S256x128_S128x128_0_0))
          (View.ld x2 (Rect.unit (s := S256x128) ![128, 0] S128x128.size inb_S256x128_S128x128_128_0)) := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  simp only [View.readAt_eq_ld, harg1.read_unread, harg2.read_unread, harg3.read_unread,
    View.ld_unit_zero (S := S400x10000) hz, View.ld_unit_zero (S := S10000x128) hz]

end Stored

/-! ## One entry of a stored block against the specification -/

/-- If row `p` of the adjacency block is row `r` of the adjacency and the features' rows are re-read at an offset
    that sends `p` to `r`, then entry `(p, q)` of the stored block is the specification at `(r, q)`. -/
theorem block_entry (x : Vec Ideal S10000x128 .f32) (adj : Vec Ideal S10000x10000 .f32) (W : Vec Ideal S256x128 .f32)
    (A : Vec Ideal S400x10000 .f32) (X : Vec Ideal S10000x128 .f32) (W' : Vec Ideal S256x128 .f32)
    (off : Fin 2 → Nat) (inb : ∀ a, off a + S400x128.size a ≤ S10000x128.size a)
    (r : Fin 10000) (p : Fin 400) (q : Fin 128)
    (hA : ∀ n : Fin 10000, A (ix2 p n) = adj (ix2 r n)) (hX : X = x) (hW : W' = W)
    (hoff0 : off 0 + p.val = r.val) (hoff1 : off 1 = 0) :
    k0_pay1 A X (View.ld X (Rect.unit (s := S10000x128) off S400x128.size inb))
        (View.ld W' (Rect.unit (s := S256x128) ![0, 0] S128x128.size inb_S256x128_S128x128_0_0))
        (View.ld W' (Rect.unit (s := S256x128) ![128, 0] S128x128.size inb_S256x128_S128x128_128_0)) (ix2 p q)
      = gcn x adj W (ix2 r q) := by
  subst hX hW
  rw [pay_apply]
  unfold gcn agg
  refine congrArg₂ (· + ·) (Finset.sum_congr rfl fun k _ => ?_) (Finset.sum_congr rfl fun k _ => ?_)
  · have e1 : (Rect.unit (s := S10000x128) off S400x128.size inb).idx (ix2 p k) = ix2 r k := funext fun a => Fin.ext (by
      match a with
      | ⟨0, _⟩ => show off 0 + 1 * p.val = r.val; omega
      | ⟨1, _⟩ => show off 1 + 1 * k.val = k.val; omega)
    have e2 : (Rect.unit (s := S256x128) ![0, 0] S128x128.size inb_S256x128_S128x128_0_0).idx (ix2 k q) = ix2 (top k) q :=
      funext fun a => Fin.ext (by
        match a with
        | ⟨0, _⟩ => show 0 + 1 * k.val = k.val; omega
        | ⟨1, _⟩ => show 0 + 1 * q.val = q.val; omega)
    exact congrArg₂ (· * ·) (congrArg X e1) (congrArg W' e2)
  · have e2 : (Rect.unit (s := S256x128) ![128, 0] S128x128.size inb_S256x128_S128x128_128_0).idx (ix2 k q) = ix2 (bot k) q :=
      funext fun a => Fin.ext (by
        match a with
        | ⟨0, _⟩ => show 128 + 1 * k.val = 128 + k.val; omega
        | ⟨1, _⟩ => show 0 + 1 * q.val = q.val; omega)
    refine congrArg₂ (· * ·) (Finset.sum_congr rfl fun n _ => ?_) (congrArg W' e2)
    rw [hA n]

/-! ## The blocks at a grid point -/

variable (m : (ℓ : Loc nD τ sig) → Buf (Elt Ideal) ℓ) (ρ : Dev nD → PrngReg)

/-- The printed index maps over the 25 points: the adjacency and the result move one block of rows per point, the
    features and the weights stay at block `(0, 0)`, and the body re-reads the features at row offset `400 t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ k0_off1 (grid0.coords t) (0 : Fin 2) = 400 * t.val ∧ k0_off1 (grid0.coords t) (1 : Fin 2) = 0 :=
  (by decide +kernel : ∀ t : Fin grid0.N, _)

/-- The adjacency block at point `t`, as a 400 × 10000 array. -/
abbrev adjBlk (c : Dev nD) (t : Fin cfg0.N) : Vec Ideal S400x10000 .f32 := iblk m c 0 t
/-- The features' block at point `t`: the one block of the whole array. -/
abbrev xBlk (c : Dev nD) (t : Fin cfg0.N) : Vec Ideal S10000x128 .f32 := iblk m c 1 t
/-- The weights' block at point `t`: the one block of the whole array. -/
abbrev wBlk (c : Dev nD) (t : Fin cfg0.N) : Vec Ideal S256x128 .f32 := iblk m c 2 t

/-- Row `p` of the adjacency block at point `t` is row `400 t + p` of the adjacency. -/
theorem adjBlk_apply (c : Dev nD) (t : Fin cfg0.N) (p : Fin 400) (n : Fin 10000) (r : Fin 10000) (hr : r.val = 400 * t.val + p.val) :
    adjBlk m c t (ix2 p n) = V m c main_arg1 (ix2 r n) := by
  obtain ⟨e0, e1, -⟩ := idx_facts t
  show iblk m c 0 t (ix2 p n) = _
  unfold iblk
  rw [View.read_apply]
  show V m c main_arg1 _ = V m c main_arg1 _
  congr 1
  funext a
  apply Fin.ext
  match a with
  | ⟨0, _⟩ => show win0_0.index t (0 : Fin 2) * 400 + 1 * p.val = r.val; rw [e0]; omega
  | ⟨1, _⟩ => show win0_0.index t (1 : Fin 2) * 10000 + 1 * n.val = n.val; rw [e1]; omega

/-- The features' block is the whole feature array. -/
theorem xBlk_eq (c : Dev nD) (t : Fin cfg0.N) : xBlk m c t = V m c main_arg0 := by
  obtain ⟨-, -, e0, e1, -⟩ := idx_facts t
  funext j
  show iblk m c 1 t j = _
  unfold iblk
  rw [View.read_apply]
  show V m c main_arg0 _ = V m c main_arg0 _
  congr 1
  funext a
  apply Fin.ext
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

/-- The weights' block is the whole weight array. -/
theorem wBlk_eq (c : Dev nD) (t : Fin cfg0.N) : wBlk m c t = V m c main_arg2 := by
  obtain ⟨-, -, -, -, e0, e1, -⟩ := idx_facts t
  funext j
  show iblk m c 2 t j = _
  unfold iblk
  rw [View.read_apply]
  show V m c main_arg2 _ = V m c main_arg2 _
  congr 1
  funext a
  apply Fin.ext
  match a with
  | ⟨0, _⟩ => show win0_2.index t (0 : Fin 2) * 256 + 1 * (j 0).val = (j 0).val; rw [e0]; omega
  | ⟨1, _⟩ => show win0_2.index t (1 : Fin 2) * 128 + 1 * (j 1).val = (j 1).val; rw [e1]; omega

/-! ## What a point writes back, the cover, and the array after the run -/

/-- The specification of the argument arrays as the region finds them. -/
abbrev result (c : Dev nD) : Buf (Elt Ideal) ((c : Thread nD τ).loc main_v0) :=
  gcn (V m c main_arg0) (V m c main_arg1) (V m c main_arg2)

/-- A 400 × 128 block whose entry `(p, q)` is entry `(400 t + p, q)` of a 10000 × 128 array is that array read
    through the result window's block at point `t`. -/
theorem cut_eq_read (t : Fin cfg0.N) (X : Vec Ideal S400x128 .f32) (G : Vec Ideal S10000x128 .f32)
    (h : ∀ (p : Fin 400) (q : Fin 128) (r : Fin 10000), r.val = 400 * t.val + p.val → X (ix2 p q) = G (ix2 r q)) :
    (cfg0.win 3).cut (grid0.coords t) X = ((cfg0.win 3).blk t).view.read (Elt Ideal) G := by
  obtain ⟨-, -, -, -, -, -, e0, e1, -⟩ := idx_facts t
  have ht : t.val < 25 := lt_of_lt_of_eq t.isLt N_0
  funext j
  obtain ⟨p, q, rfl⟩ : ∃ (p : Fin 400) (q : Fin 128), j = ix2 p q := ⟨j 0, j 1, eq_ix2 j⟩
  rw [View.read_apply]
  have hemb : ((cfg0.win 3).blk t).view.emb (ix2 p q) = ix2 (⟨400 * t.val + p.val, by omega⟩ : Fin 10000) q := by
    funext a
    apply Fin.ext
    match a with
    | ⟨0, _⟩ => show win0_3.index t (0 : Fin 2) * 400 + 1 * p.val = 400 * t.val + p.val; rw [e0]; omega
    | ⟨1, _⟩ => show win0_3.index t (1 : Fin 2) * 128 + 1 * q.val = q.val; rw [e1]; omega
  rw [hemb]
  exact h p q _ rfl

/-- What point `t` writes back is block `t` of the specification. -/
theorem flushed_eq (c : Dev nD) (t : Fin cfg0.N) :
    (dats m 0 c).flushed 3 t = ((cfg0.win 3).blk t).view.read (Elt Ideal) (result m c) := by
  rw [Value.flushed3_A, stored_eq]
  refine cut_eq_read t _ _ fun p q r hr => ?_
  obtain ⟨-, -, -, -, -, -, -, -, o0, o1⟩ := idx_facts t
  exact block_entry (V m c main_arg0) (V m c main_arg1) (V m c main_arg2) (adjBlk m c t) (xBlk m c t) (wBlk m c t)
    (k0_off1 (grid0.coords t)) (k0_off1_inb (grid0.coords t)) r p q
    (fun n => adjBlk_apply m c t p n r hr) (xBlk_eq m c t) (wBlk_eq m c t) (by rw [o0, hr]) o1

/-- An index of the result array lies in point `t`'s block iff each coordinate lies in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Row `r` of the result lies in the block written at point `r / 400`: the 25 blocks cover the array. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  obtain ⟨-, -, -, -, -, -, e0, e1, -⟩ := idx_facts t
  refine ⟨t, flush0_3 t, ?_⟩
  rw [mem_blk]
  intro a
  match a with
  | ⟨0, _⟩ =>
    show win0_3.index t (0 : Fin 2) * 400 ≤ (i 0).val ∧ (i 0).val < win0_3.index t (0 : Fin 2) * 400 + 400
    rw [e0]; omega
  | ⟨1, _⟩ =>
    show win0_3.index t (1 : Fin 2) * 128 ≤ (i 1).val ∧ (i 1).val < win0_3.index t (1 : Fin 2) * 128 + 128
    rw [e1]; omega

/-- The result array after the run is the specification of the argument arrays. -/
theorem final (c : Dev nD) : (dats m 0 c).arrAt 3 cfg0.N = result m c :=
  (dats m 0 c).arrAt_eq_of_cover 3 (result m c) (fun t _ => flushed_eq m c t) covered

/-- The kernel's run, read: the result array holds the specification of the arguments, which are unchanged. -/
theorem run : θ_run defs (onTc (τ := τ) (main (F := Ideal))) ⟨m, fun _ => 0, ρ⟩ fun r => ∀ c : Dev nD,
      r.2.mem ((c : Thread nD τ).loc main_v0)
        = gcn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.lean ====
/-
  A graph-convolution layer: `out = [x | adj · x] · W` with features `x` (10000 × 128), a dense adjacency `adj`
  (10000 × 10000) and weights `W` (256 × 128).

  The reference forms the aggregation `adj · x`, concatenates it to the right of `x`, and multiplies the 10000 × 256
  result by `W`.  The kernel never forms the concatenation: for each block of 400 rows it computes
  `x_block · W_top + (adj_block · x) · W_bot`, where `W_top` and `W_bot` are the first and the last 128 rows of `W`.
  Over the extended reals both are, entry by entry,

      out[r, j] = ∑ k < 128, x[r, k] · W[k, j]  +  ∑ k < 128, (∑ n, adj[r, n] · x[n, k]) · W[128 + k, j]

  (`Cert.Spec.gcn`): the reference's sum over the 256 columns of the concatenation splits into its first and last 128
  terms, which needs only that addition is commutative and associative, so the finiteness of the inputs is not used.
  The kernel's narrowing of `adj` and `x` to a shorter float format before the aggregation is the identity on
  extended reals.  No idealization rewrite was applied to the kernel, so the third claim is trivial.

  The three frames are the generated ones (the reference's is its generated run with the result dropped).
-/
import proofs.«159715_g60533269070024_cont_9to1_m_1378_7_alg».proof.Defs
import proofs.«159715_g60533269070024_cont_9to1_m_1378_7_alg».proof.Proof.Gen.Kernel
import proofs.«159715_g60533269070024_cont_9to1_m_1378_7_alg».proof.Proof.Gen.Kernel.Skeleton
import proofs.«159715_g60533269070024_cont_9to1_m_1378_7_alg».proof.Proof.Gen.Kernel.Launch
import proofs.«159715_g60533269070024_cont_9to1_m_1378_7_alg».proof.Proof.Gen.Kernel.Points
import proofs.«159715_g60533269070024_cont_9to1_m_1378_7_alg».proof.Proof.Gen.Kernel.Frame
import proofs.«159715_g60533269070024_cont_9to1_m_1378_7_alg».proof.Proof.Gen.KernelIdeal
import proofs.«159715_g60533269070024_cont_9to1_m_1378_7_alg».proof.Proof.Gen.KernelIdeal.Skeleton
import proofs.«159715_g60533269070024_cont_9to1_m_1378_7_alg».proof.Proof.Gen.KernelIdeal.Launch
import proofs.«159715_g60533269070024_cont_9to1_m_1378_7_alg».proof.Proof.Gen.KernelIdeal.Points
import proofs.«159715_g60533269070024_cont_9to1_m_1378_7_alg».proof.Proof.Gen.KernelIdeal.Frame
import proofs.«159715_g60533269070024_cont_9to1_m_1378_7_alg».proof.Proof.Gen.ReferenceIdeal
import proofs.«159715_g60533269070024_cont_9to1_m_1378_7_alg».proof.Proof.Gen.Pre_finite_inputs
import proofs.«159715_g60533269070024_cont_9to1_m_1378_7_alg».proof.Proof.Gen.KernelIdeal.Value
import proofs.«159715_g60533269070024_cont_9to1_m_1378_7_alg».proof.Proof.Gen.ReferenceIdeal.Run
import proofs.«159715_g60533269070024_cont_9to1_m_1378_7_alg».proof.Proof.Gen.ReferenceIdeal.Read
import proofs.«159715_g60533269070024_cont_9to1_m_1378_7_alg».proof.Proof.Spec
import proofs.«159715_g60533269070024_cont_9to1_m_1378_7_alg».proof.Proof.RefValue
import proofs.«159715_g60533269070024_cont_9to1_m_1378_7_alg».proof.Proof.KernelPayload
import proofs.«159715_g60533269070024_cont_9to1_m_1378_7_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are both the layer's specification of the
    arguments, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
